-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S8x8x1024 : Shape := ⟨3, ![8, 8, 1024]⟩
abbrev S8x1024x8 : Shape := ⟨3, ![8, 1024, 8]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x1024 : S_.BroadcastsInDim S8x1024 (![] : Fin 0 → Fin S8x1024.rank)
  reducesTo_S8x1024_S_d0_1 : S8x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S8x8x1024 : S_.BroadcastsInDim S8x8x1024 (![] : Fin 0 → Fin S8x8x1024.rank)
  reducesTo_S8x8x1024_S_d0_1_2 : S8x8x1024.ReducesTo [0, 1, 2] S_
  bcast_S_S8x1024x8 : S_.BroadcastsInDim S8x1024x8 (![] : Fin 0 → Fin S8x1024x8.rank)
  reducesTo_S8x1024x8_S_d0_1_2 : S8x1024x8.ReducesTo [0, 1, 2] S_
  reducesTo_S_S_d : S_.ReducesTo [] S_
  bcast_S_S8 : S_.BroadcastsInDim S8 (![] : Fin 0 → Fin S8.rank)
  reducesTo_S8_S_d0 : S8.ReducesTo [0] S_

variable [Facts]

def fn_part2 {F : FTy → Type} [FloatOps F] (main_arg1 : IVec S8 32) (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_c_14 : IVec S_ 32 := constantI S_ 32 0#32
  let main_v38 : IVec S8 32 := broadcastInDim S8 ![] bcast_S_S8 main_c_14
  let main_v39 : IVec S8 1 := cmpi .sge main_arg1 main_v38
  let main_c_15 : IVec S_ 1 := constantI S_ 1 1#1
  let main_v40 : IVec S_ 1 := (fun x v => Host.reduce IntOp.andi x v reducesTo_S8_S_d0 h_S_) main_v39 main_c_15
  let main_v41 : IVec S_ 1 := andi main_v37 main_v40
  let main_c_16 : IVec S_ 32 := constantI S_ 32 8#32
  let main_v42 : IVec S8 32 := broadcastInDim S8 ![] bcast_S_S8 main_c_16
  let main_v43 : IVec S8 1 := cmpi .slt main_arg1 main_v42
  let main_c_17 : IVec S_ 1 := constantI S_ 1 1#1
  let main_v44 : IVec S_ 1 := (fun x v => Host.reduce IntOp.andi x v reducesTo_S8_S_d0 h_S_) main_v43 main_c_17
  let main_v45 : IVec S_ 1 := andi main_v41 main_v44
  main_v45

def fn_part1 {F : FTy → Type} [FloatOps F] (main_arg1 : IVec S8 32) (main_arg5 : FVec F S1024x8 .f32) (main_arg6 : FVec F S8x8x1024 .f32) (main_arg7 : FVec F S8x1024x8 .f32) (main_arg8 : FVec F S_ .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S1024x8 .f32 := Host.absf main_arg5
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S8x8x1024 .f32 := Host.absf main_arg6
  let main_cst_8 : FVec F S_ .f32 := constant S_ .f32 0x7F800000#32
  let main_v25 : FVec F S8x8x1024 .f32 := broadcastInDim S8x8x1024 ![] bcast_S_S8x8x1024 main_cst_8
  let main_v26 : IVec S8x8x1024 1 := cmpf .olt main_v24 main_v25
  let main_c_9 : IVec S_ 1 := constantI S_ 1 1#1
  let main_v27 : IVec S_ 1 := (fun x v => Host.reduce IntOp.andi x v reducesTo_S8x8x1024_S_d0_1_2 h_S_) main_v26 main_c_9
  let main_v28 : IVec S_ 1 := andi main_v23 main_v27
  let main_v29 : FVec F S8x1024x8 .f32 := Host.absf main_arg7
  let main_cst_10 : FVec F S_ .f32 := constant S_ .f32 0x7F800000#32
  let main_v30 : FVec F S8x1024x8 .f32 := broadcastInDim S8x1024x8 ![] bcast_S_S8x1024x8 main_cst_10
  let main_v31 : IVec S8x1024x8 1 := cmpf .olt main_v29 main_v30
  let main_c_11 : IVec S_ 1 := constantI S_ 1 1#1
  let main_v32 : IVec S_ 1 := (fun x v => Host.reduce IntOp.andi x v reducesTo_S8x1024x8_S_d0_1_2 h_S_) main_v31 main_c_11
  let main_v33 : IVec S_ 1 := andi main_v28 main_v32
  fn_part2 (F := F) main_arg1 main_arg8 main_v33

def fn {F : FTy → Type} [FloatOps F] (main_arg0 : FVec F S8x4096x1024 .f32) (main_arg1 : IVec S8 32) (main_arg2 : FVec F S1024x1024 .f32) (main_arg3 : FVec F S1024 .f32) (main_arg4 : FVec F S8x1024 .f32) (main_arg5 : FVec F S1024x8 .f32) (main_arg6 : FVec F S8x8x1024 .f32) (main_arg7 : FVec F S8x1024x8 .f32) (main_arg8 : FVec F S_ .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x1024 .f32 := Host.absf main_arg4
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg1 main_arg5 main_arg6 main_arg7 main_arg8 main_v13 main_v16
-- ==== Kernel.lean ====
abbrev S8x4096x1024 : Shape := ⟨3, ![8, 4096, 1024]⟩
abbrev S8 : Shape := ⟨1, ![8]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S8x8x1024 : Shape := ⟨3, ![8, 8, 1024]⟩
abbrev S8x1024x8 : Shape := ⟨3, ![8, 1024, 8]⟩
abbrev S_ : Shape := ⟨0, ![]⟩
abbrev S1x1024 : Shape := ⟨2, ![1, 1024]⟩
abbrev S1x8x1024 : Shape := ⟨3, ![1, 8, 1024]⟩
abbrev S8x1 : Shape := ⟨2, ![8, 1]⟩
abbrev S8x16x1024 : Shape := ⟨3, ![8, 16, 1024]⟩
abbrev S1x1024x1024 : Shape := ⟨3, ![1, 1024, 1024]⟩
abbrev S1x16x1024 : Shape := ⟨3, ![1, 16, 1024]⟩
abbrev S16x1024 : Shape := ⟨2, ![16, 1024]⟩
abbrev S1024x16 : Shape := ⟨2, ![1024, 16]⟩

abbrev nBuf : Space → Nat
  | .hbm => 64
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8, .i32⟩
  | .hbm, ⟨2, _⟩ => ⟨S1024x1024, .f32⟩
  | .hbm, ⟨3, _⟩ => ⟨S1024, .f32⟩
  | .hbm, ⟨4, _⟩ => ⟨S8x1024, .f32⟩
  | .hbm, ⟨5, _⟩ => ⟨S1024x8, .f32⟩
  | .hbm, ⟨6, _⟩ => ⟨S8x8x1024, .f32⟩
  | .hbm, ⟨7, _⟩ => ⟨S8x1024x8, .f32⟩
  | .hbm, ⟨8, _⟩ => ⟨S_, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x1024, .bf16⟩
  | .hbm, ⟨24, _⟩ => ⟨S1x1024, .f32⟩
  | .hbm, ⟨25, _⟩ => ⟨S1x8x1024, .f32⟩
  | .hbm, ⟨26, _⟩ => ⟨S8x8x1024, .f32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S8x8x1024, .f32⟩
  | .hbm, ⟨36, _⟩ => ⟨S8x16x1024, .f32⟩
  | .hbm, ⟨37, _⟩ => ⟨S8x16x1024, .bf16⟩
  | .hbm, ⟨38, _⟩ => ⟨S_, .f32⟩
  | .hbm, ⟨39, _⟩ => ⟨S_, .f32⟩
  | .hbm, ⟨40, _⟩ => ⟨S1024x8, .f32⟩
  | .hbm, ⟨41, _⟩ => ⟨S1024x8, .f32⟩
  | .hbm, ⟨42, _⟩ => ⟨S8x1024, .f32⟩
  | .hbm, ⟨43, _⟩ => ⟨S1x8x1024, .f32⟩
  | .hbm, ⟨44, _⟩ => ⟨S8x8x1024, .f32⟩
  | .hbm, ⟨45, _⟩ => ⟨S_, .i32⟩
  | .hbm, ⟨46, _⟩ => ⟨S8, .i32⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S8x1, .i32⟩
  | .hbm, ⟨53, _⟩ => ⟨S8x1024x8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x1024x8, .f32⟩
  | .hbm, ⟨59, _⟩ => ⟨S8x1024x8, .f32⟩
  | .hbm, ⟨60, _⟩ => ⟨S8x8x1024, .f32⟩
  | .hbm, ⟨61, _⟩ => ⟨S8x16x1024, .f32⟩
  | .hbm, ⟨62, _⟩ => ⟨S8x16x1024, .bf16⟩
  | .hbm, ⟨63, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x1024x1024, .f32⟩
  | .local _ .vmem, ⟨9, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8 : S_.BroadcastsInDim S8 (![] : Fin 0 → Fin S8.rank)
  bitsLt_bf16_f32 : FTy.bits .bf16 < FTy.bits .f32
  shapeCasts_S1024_S1x1024 : S1024.ShapeCasts S1x1024
  bcast_S8x1024_S1x8x1024_1_2 : S8x1024.BroadcastsInDim S1x8x1024 (![1, 2] : Fin 2 → Fin S1x8x1024.rank)
  bcast_S1x8x1024_S8x8x1024_0_1_2 : S1x8x1024.BroadcastsInDim S8x8x1024 (![0, 1, 2] : Fin 3 → Fin S8x8x1024.rank)
  bcast_S8_S8x1_0 : S8.BroadcastsInDim S8x1 (![0] : Fin 1 → Fin S8x1.rank)
  concatenates_S8x8x1024_S8x8x1024_S8x16x1024_d1 : Shape.Concatenates [S8x8x1024, S8x8x1024] S8x16x1024 1
  bcast_S_S1024x8 : S_.BroadcastsInDim S1024x8 (![] : Fin 0 → Fin S1024x8.rank)
  transposes_S1024x8_S8x1024_1_0 : S1024x8.Transposes [1, 0] S8x1024
  bcast_S_S8x1024x8 : S_.BroadcastsInDim S8x1024x8 (![] : Fin 0 → Fin S8x1024x8.rank)
  transposes_S8x1024x8_S8x8x1024_0_2_1 : S8x1024x8.Transposes [0, 2, 1] S8x8x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S1024x1024_S1x1024x1024 : S1024x1024.ShapeCasts S1x1024x1024
  gather_S8x8x1024_S8x1_S8x8x1024_12_0_n_n_0_1_181024_wf : GatherDims.WF S8x8x1024 S8x1 S8x8x1024 [1, 2] [0] [] [0] [] 1 ![1, 8, 1024]
  gather_S8x1024x8_S8x1_S8x1024x8_12_0_n_n_0_1_110248_wf : GatherDims.WF S8x1024x8 S8x1 S8x1024x8 [1, 2] [0] [] [0] [] 1 ![1, 1024, 8]
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1024.size a ≤ S8x16x1024.size a
  hwx0_3 : ∀ i : grid0.Coords, EltTy.bits .bf16 = 32 ∨ (Rect.block (s := S8x16x1024) S1x16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1024.size a ≤ S8x16x1024.size a
  hwx0_4 : ∀ i : grid0.Coords, EltTy.bits .bf16 = 32 ∨ (Rect.block (s := S8x16x1024) S1x16x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x4096x1024.size a
  hwx0_5 : ∀ i : grid0.Coords, EltTy.bits .f32 = 32 ∨ (Rect.block (s := S8x4096x1024) S1x1024x1024.size (cc0_transform_5 i) (hinb0_5 i)).WholeWords (EltTy.packing .f32)

variable [Facts₀]

def gather_S8x8x1024_S8x1_S8x8x1024_12_0_n_n_0_1_181024 : GatherDims S8x8x1024 S8x1 S8x8x1024 where
  offsetDims := [1, 2]
  collapsedSliceDims := [0]
  operandBatchingDims := []
  startIndicesBatchingDims := []
  startIndexMap := [0]
  indexVectorDim := 1
  sliceSizes := ![1, 8, 1024]
  wf := gather_S8x8x1024_S8x1_S8x8x1024_12_0_n_n_0_1_181024_wf
def gather_S8x1024x8_S8x1_S8x1024x8_12_0_n_n_0_1_110248 : GatherDims S8x1024x8 S8x1 S8x1024x8 where
  offsetDims := [1, 2]
  collapsedSliceDims := [0]
  operandBatchingDims := []
  startIndicesBatchingDims := []
  startIndexMap := [0]
  indexVectorDim := 1
  sliceSizes := ![1, 1024, 8]
  wf := gather_S8x1024x8_S8x1_S8x1024x8_12_0_n_n_0_1_110248_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S8x8x1024 : Shape := ⟨3, ![8, 8, 1024]⟩
abbrev S8x1024x8 : Shape := ⟨3, ![8, 1024, 8]⟩
abbrev S_ : Shape := ⟨0, ![]⟩
abbrev S1x1x1024 : Shape := ⟨3, ![1, 1, 1024]⟩
abbrev S8x4096x8 : Shape := ⟨3, ![8, 4096, 8]⟩
abbrev S8x1 : Shape := ⟨2, ![8, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .i32⟩
  | .hbm, ⟨2, _⟩ => ⟨S1024x1024, .f32⟩
  | .hbm, ⟨3, _⟩ => ⟨S1024, .f32⟩
  | .hbm, ⟨4, _⟩ => ⟨S8x1024, .f32⟩
  | .hbm, ⟨5, _⟩ => ⟨S1024x8, .f32⟩
  | .hbm, ⟨6, _⟩ => ⟨S8x8x1024, .f32⟩
  | .hbm, ⟨7, _⟩ => ⟨S8x1024x8, .f32⟩
  | .hbm, ⟨8, _⟩ => ⟨S_, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x8, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S8x1, .i32⟩
  | .hbm, ⟨26, _⟩ => ⟨S8x8x1024, .f32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S8x1024x8, .f32⟩
  | .hbm, ⟨36, _⟩ => ⟨S8x4096x8, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  bcast_S_S8 : S_.BroadcastsInDim S8 (![] : Fin 0 → Fin S8.rank)
  bcast_S8_S8x1_0 : S8.BroadcastsInDim S8x1 (![0] : Fin 1 → Fin S8x1.rank)
  dot_S8x4096x1024_S1024x1024_S8x4096x1024_2_1_01_0_n_n_wf : DotDims.WF S8x4096x1024 S1024x1024 S8x4096x1024 [2] [1] [0, 1] [0] [] []
  dot_S8x4096x1024_S8x1024_S8x4096x8_2_1_01_0_n_n_wf : DotDims.WF S8x4096x1024 S8x1024 S8x4096x8 [2] [1] [0, 1] [0] [] []
  dot_S8x4096x8_S1024x8_S8x4096x1024_2_1_01_0_n_n_wf : DotDims.WF S8x4096x8 S1024x8 S8x4096x1024 [2] [1] [0, 1] [0] [] []
  gather_S8x8x1024_S8x1_S8x8x1024_12_0_n_n_0_1_181024_wf : GatherDims.WF S8x8x1024 S8x1 S8x8x1024 [1, 2] [0] [] [0] [] 1 ![1, 8, 1024]
  gather_S8x1024x8_S8x1_S8x1024x8_12_0_n_n_0_1_110248_wf : GatherDims.WF S8x1024x8 S8x1 S8x1024x8 [1, 2] [0] [] [0] [] 1 ![1, 1024, 8]
  dot_S8x4096x1024_S8x8x1024_S8x4096x8_2_2_1_1_0_0_wf : DotDims.WF S8x4096x1024 S8x8x1024 S8x4096x8 [2] [2] [1] [1] [0] [0]
  dot_S8x4096x8_S8x1024x8_S8x4096x1024_2_2_1_1_0_0_wf : DotDims.WF S8x4096x8 S8x1024x8 S8x4096x1024 [2] [2] [1] [1] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S8x1024_S8x4096x8_2_1_01_0_n_n : DotDims S8x4096x1024 S8x1024 S8x4096x8 where
  lhsContracting := [2]
  rhsContracting := [1]
  lhsNonContracting := [0, 1]
  rhsNonContracting := [0]
  lhsBatch := []
  rhsBatch := []
  wf := dot_S8x4096x1024_S8x1024_S8x4096x8_2_1_01_0_n_n_wf
def dot_S8x4096x8_S1024x8_S8x4096x1024_2_1_01_0_n_n : DotDims S8x4096x8 S1024x8 S8x4096x1024 where
  lhsContracting := [2]
  rhsContracting := [1]
  lhsNonContracting := [0, 1]
  rhsNonContracting := [0]
  lhsBatch := []
  rhsBatch := []
  wf := dot_S8x4096x8_S1024x8_S8x4096x1024_2_1_01_0_n_n_wf
def gather_S8x8x1024_S8x1_S8x8x1024_12_0_n_n_0_1_181024 : GatherDims S8x8x1024 S8x1 S8x8x1024 where
  offsetDims := [1, 2]
  collapsedSliceDims := [0]
  operandBatchingDims := []
  startIndicesBatchingDims := []
  startIndexMap := [0]
  indexVectorDim := 1
  sliceSizes := ![1, 8, 1024]
  wf := gather_S8x8x1024_S8x1_S8x8x1024_12_0_n_n_0_1_181024_wf
def gather_S8x1024x8_S8x1_S8x1024x8_12_0_n_n_0_1_110248 : GatherDims S8x1024x8 S8x1 S8x1024x8 where
  offsetDims := [1, 2]
  collapsedSliceDims := [0]
  operandBatchingDims := []
  startIndicesBatchingDims := []
  startIndexMap := [0]
  indexVectorDim := 1
  sliceSizes := ![1, 1024, 8]
  wf := gather_S8x1024x8_S8x1_S8x1024x8_12_0_n_n_0_1_110248_wf
def dot_S8x4096x1024_S8x8x1024_S8x4096x8_2_2_1_1_0_0 : DotDims S8x4096x1024 S8x8x1024 S8x4096x8 where
  lhsContracting := [2]
  rhsContracting := [2]
  lhsNonContracting := [1]
  rhsNonContracting := [1]
  lhsBatch := [0]
  rhsBatch := [0]
  wf := dot_S8x4096x1024_S8x8x1024_S8x4096x8_2_2_1_1_0_0_wf
def dot_S8x4096x8_S8x1024x8_S8x4096x1024_2_2_1_1_0_0 : DotDims S8x4096x8 S8x1024x8 S8x4096x1024 where
  lhsContracting := [2]
  rhsContracting := [2]
  lhsNonContracting := [1]
  rhsNonContracting := [1]
  lhsBatch := [0]
  rhsBatch := [0]
  wf := dot_S8x4096x8_S8x1024x8_S8x4096x1024_2_2_1_1_0_0_wf

class Facts : Prop extends Facts₀ where

variable [Facts]
-- ==== Proof.Spec.lean ====
/-
  The arithmetic of a dense layer with two rank-8 adapters mixed by a gate, on the extended reals.

  For an activation row `x b s`, a weight `w`, a bias, a shared adapter `(sa, sb)`, a table of expert adapters
  `(ea, eb)` of which batch row `b` uses expert `e b`, a gate `g` and the literals `one`, `two`:

  * the SPLIT form adds to the dense part `x·wᵀ + bias` the two adapter outputs, each scaled by `two` and then by its
    share `g` or `one - g`;
  * the FUSED form folds the shares and the scale into the second factors first, `sb·(g·two)` and
    `eb·((one - g)·two)`, and adds the two rank-8 sums to the dense part.

  They agree when every entry, the gate and the two literals are real numbers: a real factor moves across a finite
  sum of reals (on the extended reals it would not move across a sum holding both infinities).
-/
import Idealize.ShloMosaic.PureOps.Ideal

noncomputable section

open scoped BigOperators

namespace Cert.Colora

open Idealize.ShloMosaic

/-! ## Finite sums of reals inside the extended reals -/

/-- A finite sum of real numbers, taken in the extended reals, is the real sum. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A sum over sixteen positions is the sum over the first eight plus the sum over the last eight. -/
theorem sum_fin16 {M : Type} [AddCommMonoid M] (f : Fin 16 → M) :
    ∑ r : Fin 16, f r = ∑ r : Fin 8, f ⟨r.val, by have := r.isLt; omega⟩ + ∑ r : Fin 8, f ⟨8 + r.val, by have := r.isLt; omega⟩ :=
  Fin.sum_univ_add (a := 8) (b := 8) f

/-! ## The two forms -/

section Forms
variable (x : Fin 8 → Fin 4096 → Fin 1024 → EReal) (w : Fin 1024 → Fin 1024 → EReal) (bias : Fin 1024 → EReal)
  (sa : Fin 8 → Fin 1024 → EReal) (sb : Fin 1024 → Fin 8 → EReal)
  (ea : Fin 8 → Fin 8 → Fin 1024 → EReal) (eb : Fin 8 → Fin 1024 → Fin 8 → EReal)
  (e : Fin 8 → Fin 8) (g one two : EReal)

/-- The dense part: row `(b, s)` of `x` against row `o` of `w`, plus the bias. -/
def dense (b : Fin 8) (s : Fin 4096) (o : Fin 1024) : EReal := (∑ d : Fin 1024, x b s d * w o d) + bias o

/-- The fused form: the scales folded into the second factors, two rank-8 sums. -/
def fused (b : Fin 8) (s : Fin 4096) (o : Fin 1024) : EReal :=
  dense x w bias b s o
    + (∑ r : Fin 8, (∑ d : Fin 1024, x b s d * sa r d) * (sb o r * (g * two))
      + ∑ r : Fin 8, (∑ d : Fin 1024, x b s d * ea (e b) r d) * (eb (e b) o r * ((one - g) * two)))

/-- The split form: each adapter's output scaled by `two`, then by its share. -/
def split (b : Fin 8) (s : Fin 4096) (o : Fin 1024) : EReal :=
  (dense x w bias b s o + g * ((∑ r : Fin 8, (∑ d : Fin 1024, x b s d * sa r d) * sb o r) * two))
    + (one - g) * ((∑ r : Fin 8, (∑ d : Fin 1024, x b s d * ea (e b) r d) * eb (e b) o r) * two)

end Forms

/-- The identity over the reals: a factor common to every term of a finite sum moves out of it. -/
theorem mix_real (D : ℝ) (P Q sbv ebv : Fin 8 → ℝ) (g one two : ℝ) :
    D + (∑ r, P r * (sbv r * (g * two)) + ∑ r, Q r * (ebv r * ((one - g) * two)))
      = (D + g * ((∑ r, P r * sbv r) * two)) + (one - g) * ((∑ r, Q r * ebv r) * two) := by
  rw [Finset.sum_mul, Finset.sum_mul, Finset.mul_sum, Finset.mul_sum, add_assoc]
  congr 1
  congr 1 <;> exact Finset.sum_congr rfl (fun r _ => by ring)

/-- On real data the fused form is the split form. -/
theorem fused_eq_split
    (x : Fin 8 → Fin 4096 → Fin 1024 → EReal) (w : Fin 1024 → Fin 1024 → EReal) (bias : Fin 1024 → EReal)
    (sa : Fin 8 → Fin 1024 → EReal) (sb : Fin 1024 → Fin 8 → EReal)
    (ea : Fin 8 → Fin 8 → Fin 1024 → EReal) (eb : Fin 8 → Fin 1024 → Fin 8 → EReal)
    (e : Fin 8 → Fin 8) (g one two : EReal)
    (hx : ∀ b s d, ∃ v : ℝ, x b s d = v) (hw : ∀ o d, ∃ v : ℝ, w o d = v) (hb : ∀ o, ∃ v : ℝ, bias o = v)
    (hsa : ∀ r d, ∃ v : ℝ, sa r d = v) (hsb : ∀ o r, ∃ v : ℝ, sb o r = v)
    (hea : ∀ t r d, ∃ v : ℝ, ea t r d = v) (heb : ∀ t o r, ∃ v : ℝ, eb t o r = v)
    (hg : ∃ v : ℝ, g = v) (hone : ∃ v : ℝ, one = v) (htwo : ∃ v : ℝ, two = v)
    (b : Fin 8) (s : Fin 4096) (o : Fin 1024) :
    fused x w bias sa sb ea eb e g one two b s o = split x w bias sa sb ea eb e g one two b s o := by
  choose x' hx using hx
  choose w' hw using hw
  choose bias' hb using hb
  choose sa' hsa using hsa
  choose sb' hsb using hsb
  choose ea' hea using hea
  choose eb' heb using heb
  obtain ⟨g', rfl⟩ := hg
  obtain ⟨one', rfl⟩ := hone
  obtain ⟨two', rfl⟩ := htwo
  unfold fused split dense
  simp only [hx, hw, hb, hsa, hsb, hea, heb, ← EReal.coe_mul, ← EReal.coe_add, ← EReal.coe_sub, coe_sum]
  exact congrArg _ (mix_real _ _ _ _ _ _ _ _)

/-! ## The gate and the literals are real -/

/-- The f32 word of `1.0` is the real `1`. -/
theorem ofBits_one : Ideal.ofBits .f32 0x3F800000#32 = ((1 : ℝ) : EReal) := by
  simp [Ideal.ofBits, Ideal.ieee, -EReal.coe_mul]; norm_num

/-- The f32 word of `2.0` is the real `2`. -/
theorem ofBits_two : Ideal.ofBits .f32 0x40000000#32 = ((2 : ℝ) : EReal) := by
  simp [Ideal.ofBits, Ideal.ieee, -EReal.coe_mul]; norm_num

/-- The logistic gate `one / (one + exp (-c))` of a real `c` is a real number: the exponential is positive, so the
    divisor is a nonzero real. -/
theorem gate_real (c : ℝ) :
    ∃ v : ℝ, Ideal.div (((1 : ℝ) : EReal)) (((1 : ℝ) : EReal) + Ideal.exp (-((c : ℝ) : EReal))) = v := by
  have hpos : (1 + Real.exp (-c) : ℝ) ≠ 0 := by have := Real.exp_pos (-c); linarith
  refine ⟨1 * (1 / (1 + Real.exp (-c))), ?_⟩
  rw [← EReal.coe_neg, Ideal.exp_coe, ← EReal.coe_add, Ideal.div_coe hpos, ← EReal.coe_mul]

end Cert.Colora

end
-- ==== Proof.LibSlabGather.lean ====
/-
  A gather of whole slabs of a rank-3 table along its first axis, read at an index.

  For a table `x : [N, A, B]` and an integer vector `idx : [n]` laid out as a column `[n, 1]`, the indexing
  `x[idx]` is a gather with offset axes `[1, 2]`, the first operand axis collapsed, start index map `[0]`, the index
  vector on axis 1 and slices `[1, A, B]`: result element `(k, a, b)` is `x` at `(idx[k, 0], a, b)`, the start index read
  as a signed integer and clamped into `[0, N - 1]`.
-/
import Idealize.ShloMosaic.Lib.ValueIdx

noncomputable section

namespace Cert.Lib.SlabGather

open Idealize.ShloMosaic Idealize.ShloMosaic.ValueIdx

variable {α : Type}

/-- The dimension numbers of `x[idx]` for a table `[N, A, B]`, a column of `n` start indices and a result
    `[n, A, B]`; the side conditions `wf` are decided on a program's literal shapes. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The slab a start index word selects: the word read signed, clamped into `[0, N - 1]`. -/
def slabOf (N : Nat) (hN : 0 < N) {w : Nat} (i : BitVec w) : Fin N := ⟨min i.toInt.toNat (N - 1), by omega⟩

section Axes
variable {N A B n w : Nat} (hN : 0 < N)
  (wf : GatherDims.WF ⟨3, ![N, A, B]⟩ ⟨2, ![n, 1]⟩ ⟨3, ![n, A, B]⟩ [1, 2] [0] [] [0] [] 1 ![1, A, B])
  (idx : IVec ⟨2, ![n, 1]⟩ w) (j : (⟨3, ![n, A, B]⟩ : Shape).Idx)

/-- On the collapsed axis the operand coordinate is the clamped start index. -/
theorem operand_axis0 :
    ((slabDims N A B n wf).operandIdx j idx (0 : Fin 3)).val = (slabOf N hN (idx (ix2 (j 0) (0 : Fin 1)))).val := by
  show (slabDims N A B n wf).start j idx (0 : Fin 3) + (slabDims N A B n wf).batchCoord j (0 : Fin 3)
    + (slabDims N A B n wf).offCoord j (0 : Fin 3) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (slabDims N A B n wf).startIndexMap from List.mem_singleton.mpr rfl)]
  have hsi : (slabDims N A B n wf).siIdx j ⟨List.idxOf (0 : Fin 3) (slabDims N A B n wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the second axis the slice starts at `0` and the coordinate is the result's. -/
theorem operand_axis1 : ((slabDims N A B n wf).operandIdx j idx (1 : Fin 3)).val = (j 1).val := by
  show (slabDims N A B n wf).start j idx (1 : Fin 3) + (slabDims N A B n wf).batchCoord j (1 : Fin 3)
    + (slabDims N A B n wf).offCoord j (1 : Fin 3) = _
  rw [GatherDims.batchCoord_eq_zero _ _ _ List.not_mem_nil]
  have h0 : (slabDims N A B n wf).start j idx (1 : Fin 3) = 0 := by
    unfold GatherDims.start
    rw [dif_neg (show ¬ (1 : Fin 3) ∈ [(0 : Fin 3)] by decide)]
  rw [h0]
  simp only [Nat.add_zero, Nat.zero_add]
  rfl

/-- On the third axis likewise. -/
theorem operand_axis2 : ((slabDims N A B n wf).operandIdx j idx (2 : Fin 3)).val = (j 2).val := by
  show (slabDims N A B n wf).start j idx (2 : Fin 3) + (slabDims N A B n wf).batchCoord j (2 : Fin 3)
    + (slabDims N A B n wf).offCoord j (2 : Fin 3) = _
  rw [GatherDims.batchCoord_eq_zero _ _ _ List.not_mem_nil]
  have h0 : (slabDims N A B n wf).start j idx (2 : Fin 3) = 0 := by
    unfold GatherDims.start
    rw [dif_neg (show ¬ (2 : Fin 3) ∈ [(0 : Fin 3)] by decide)]
  rw [h0]
  simp only [Nat.add_zero, Nat.zero_add]
  rfl

end Axes

/-- THE GATHER READ AT `(k, a, b)`: the table at the slab `idx[k, 0]` selects, and the same two inner coordinates. -/
theorem gather_slab_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (j : (⟨3, ![n, A, B]⟩ : Shape).Idx) :
    Host.gather (slabDims N A B n wf) x idx j
      = x (ix3 (slabOf N hN (idx (ix2 (j 0) (0 : Fin 1)))) (j 1) (j 2)) := by
  unfold Host.gather
  congr 1
  funext a
  refine Fin.ext ?_
  match a with
  | ⟨0, _⟩ => exact operand_axis0 hN wf idx j
  | ⟨1, _⟩ => exact operand_axis1 wf idx j
  | ⟨2, _⟩ => exact operand_axis2 wf idx j

/-- A start index word in `[0, N)` selects the slab of its own value. -/
theorem slabOf_val {N : Nat} (hN : 0 < N) {w : Nat} (i : BitVec w) (h0 : 0 ≤ i.toInt) (h1 : i.toInt < N) :
    (slabOf N hN i).val = i.toInt.toNat := by
  unfold slabOf
  show min i.toInt.toNat (N - 1) = _
  omega

end Cert.Lib.SlabGather

end
-- ==== Proof.Layer.lean ====
/-
  The layer as a function of its nine argument arrays.

  The arrays are read through their coordinates (`cur1`, `cur2`, `cur3`); the gate is the logistic function of the
  scalar `collab_w`, written as the quotient `1 / (1 + exp (-c))`; batch row `b` uses the expert its task id names,
  the id word read signed and clamped into `[0, 7]`. `fusedOf` and `splitOf` are the two forms of Spec.lean at these
  data, as whole arrays; they agree when the float arrays hold reals.
-/
import proofs.«427450_j83382495084801_3_alg».proof.Proof.Spec
import proofs.«427450_j83382495084801_3_alg».proof.Proof.LibSlabGather

noncomputable section

namespace Cert.Colora

open Idealize.ShloMosaic Idealize.ShloMosaic.ValueIdx Cert.Lib.SlabGather

/-- A rank-1 array by its coordinate. -/
def cur1 {α : Type} {n0 : Nat} (a : (⟨1, ![n0]⟩ : Shape).Idx → α) : Fin n0 → α := fun i => a (ix1 i)
/-- A rank-2 array by its coordinates. -/
def cur2 {α : Type} {n0 n1 : Nat} (a : (⟨2, ![n0, n1]⟩ : Shape).Idx → α) : Fin n0 → Fin n1 → α := fun i j => a (ix2 i j)
/-- A rank-3 array by its coordinates. -/
def cur3 {α : Type} {n0 n1 n2 : Nat} (a : (⟨3, ![n0, n1, n2]⟩ : Shape).Idx → α) : Fin n0 → Fin n1 → Fin n2 → α :=
  fun i j k => a (ix3 i j k)

/-- The literal `1.0`. -/
abbrev one : EReal := Ideal.ofBits .f32 0x3F800000#32
/-- The literal `2.0`. -/
abbrev two : EReal := Ideal.ofBits .f32 0x40000000#32

/-- The gate: the logistic function of the scalar, as the quotient the programs compute. -/
def gateOf (c : (⟨0, ![]⟩ : Shape).Idx → EReal) : EReal := Ideal.div one (one + Ideal.exp (-(c ix0)))

/-- The expert batch row `b` uses. -/
def expertOf (t : (⟨1, ![8]⟩ : Shape).Idx → BitVec 32) (b : Fin 8) : Fin 8 := slabOf 8 (by decide) (t (ix1 b))

section Arrays
variable (a0 : (⟨3, ![8, 4096, 1024]⟩ : Shape).Idx → EReal) (a1 : (⟨1, ![8]⟩ : Shape).Idx → BitVec 32)
  (a2 : (⟨2, ![1024, 1024]⟩ : Shape).Idx → EReal) (a3 : (⟨1, ![1024]⟩ : Shape).Idx → EReal)
  (a4 : (⟨2, ![8, 1024]⟩ : Shape).Idx → EReal) (a5 : (⟨2, ![1024, 8]⟩ : Shape).Idx → EReal)
  (a6 : (⟨3, ![8, 8, 1024]⟩ : Shape).Idx → EReal) (a7 : (⟨3, ![8, 1024, 8]⟩ : Shape).Idx → EReal)
  (a8 : (⟨0, ![]⟩ : Shape).Idx → EReal)

/-- The fused form of the layer, as an array. -/
def fusedOf : (⟨3, ![8, 4096, 1024]⟩ : Shape).Idx → EReal := fun i =>
  fused (cur3 a0) (cur2 a2) (cur1 a3) (cur2 a4) (cur2 a5) (cur3 a6) (cur3 a7) (expertOf a1) (gateOf a8) one two (i 0) (i 1) (i 2)

/-- The split form of the layer, as an array. -/
def splitOf : (⟨3, ![8, 4096, 1024]⟩ : Shape).Idx → EReal := fun i =>
  split (cur3 a0) (cur2 a2) (cur1 a3) (cur2 a4) (cur2 a5) (cur3 a6) (cur3 a7) (expertOf a1) (gateOf a8) one two (i 0) (i 1) (i 2)

/-- On real data the two arrays are one. -/
theorem fusedOf_eq_splitOf (h0 : ∀ i, ∃ v : ℝ, a0 i = v) (h2 : ∀ i, ∃ v : ℝ, a2 i = v) (h3 : ∀ i, ∃ v : ℝ, a3 i = v)
    (h4 : ∀ i, ∃ v : ℝ, a4 i = v) (h5 : ∀ i, ∃ v : ℝ, a5 i = v) (h6 : ∀ i, ∃ v : ℝ, a6 i = v)
    (h7 : ∀ i, ∃ v : ℝ, a7 i = v) (h8 : ∀ i, ∃ v : ℝ, a8 i = v) :
    fusedOf a0 a1 a2 a3 a4 a5 a6 a7 a8 = splitOf a0 a1 a2 a3 a4 a5 a6 a7 a8 := by
  funext i
  obtain ⟨c, hc⟩ := h8 ix0
  have hg : ∃ v : ℝ, gateOf a8 = v := by
    unfold gateOf
    have e1 : (one : EReal) = ((1 : ℝ) : EReal) := ofBits_one
    rw [hc, e1]
    exact gate_real c
  exact fused_eq_split _ _ _ _ _ _ _ _ _ _ _ (fun b s d => h0 _) (fun o d => h2 _) (fun o => h3 _) (fun r d => h4 _)
    (fun o r => h5 _) (fun t r d => h6 _) (fun t o r => h7 _) hg ⟨1, ofBits_one⟩ ⟨2, ofBits_two⟩ (i 0) (i 1) (i 2)

end Arrays

end Cert.Colora

end
-- ==== Proof.TaskWord.lean ====
/-
  Two facts about a task id read as a signed 32-bit word `t`.

  * If `0 ≤ t`, the wrap that turns a negative index into a position from the end, `t < 0 ? t + 8 : t`, leaves it alone.
  * If `0 ≤ t < 8`, clipping into `[0, 7]`, `min 7 (max 0 t)`, leaves it alone.
-/
import Idealize.ShloMosaic.Lib.Affine
import Idealize.ShloMosaic.Lib.ValueIdx

noncomputable section

namespace Cert.TaskWord

open Idealize.ShloMosaic

/-- The wrap of a nonnegative id is the id. -/
theorem wrap_id (t : BitVec 32) (h0 : 0 ≤ t.toInt) :
    Scalar.select (IntOp.cmpi .slt t 0#32) (IntOp.addi t 8#32) t = t := by
  have hz : (0#32 : BitVec 32).toInt = 0 := by decide
  have hc : IntOp.cmpi .slt t 0#32 = 0#1 :=
    ValueIdx.eq_zero_of_ne_one (by rw [IntOp.cmpi_slt, hz]; omega)
  rw [hc]
  exact ValueIdx.select_zero _ _

/-- The clip of an id in `[0, 8)` into `[0, 7]` is the id. -/
theorem clip_id (t : BitVec 32) (h0 : 0 ≤ t.toInt) (h1 : t.toInt < 8) :
    IntOp.minsi 7#32 (IntOp.maxsi 0#32 t) = t := by
  have hz : (0#32 : BitVec 32).toInt = 0 := by decide
  have h7 : (7#32 : BitVec 32).toInt = 7 := by decide
  have hmax : IntOp.maxsi 0#32 t = t := by
    unfold IntOp.maxsi
    rw [if_neg]
    rw [BitVec.slt_iff_toInt_lt, hz]
    omega
  rw [hmax]
  unfold IntOp.minsi
  by_cases h : (7#32 : BitVec 32).slt t = true
  · rw [BitVec.slt_iff_toInt_lt, h7] at h
    omega
  · rw [if_neg h]

end Cert.TaskWord

end
-- ==== Proof.HostArrays.lean ====
/-
  The four arrays the host computes before the kernel runs, as the kernel finds them.

  * the weight, only changed in float format;
  * the bias as a `[1, 1024]` row;
  * the FIRST FACTORS `[8, 16, 1024]`: for every batch row, the shared adapter's eight rows followed by the eight rows
    of the expert its clipped task id names;
  * the SECOND FACTORS `[8, 16, 1024]`: the shared adapter's second matrix times `gate · 2`, transposed, followed by
    the named expert's second matrix times `(1 - gate) · 2`, transposed.

  For an id in `[0, 8)` clipping into `[0, 7]` and the wrap of negative indices both leave it alone, so the expert is
  the one `expertOf` names.
-/
import proofs.«427450_j83382495084801_3_alg».proof.Proof.Gen.KernelIdeal.Frame
import proofs.«427450_j83382495084801_3_alg».proof.Proof.Layer
import proofs.«427450_j83382495084801_3_alg».proof.Proof.TaskWord
import Idealize.ShloMosaic.Lib.StableHlo.Run
import Idealize.ShloMosaic.Lib.Pipeline.Value
import Idealize.ShloMosaic.PureOps.Ideal.Laws

set_option maxRecDepth 65536

noncomputable section

namespace Cert.KernelIdeal.HostArrays

open Cert.KernelIdeal Cert.KernelIdeal.Gen
open Idealize.ShloMosaic Idealize.ShloMosaic.TcCoe Idealize.SL.Sem Idealize.ShloMosaic.StableHlo
open Idealize.ShloMosaic.ValueIdx Cert.Colora Cert.Lib.SlabGather

/-! ## The arrays as terms of the arguments -/

section Terms
variable (t : IVec S8 32) (cw : FVec Ideal S_ .f32) (sA : FVec Ideal S8x1024 .f32) (sB : FVec Ideal S1024x8 .f32)
  (eA : FVec Ideal S8x8x1024 .f32) (eB : FVec Ideal S8x1024x8 .f32)

/-- The task ids clipped into `[0, 7]`. -/
def clipped : IVec S8 32 :=
  minsi (broadcastInDim S8 ![] bcast_S_S8 (id (constantI S_ 32 7#32)))
    (maxsi (broadcastInDim S8 ![] bcast_S_S8 (id (constantI S_ 32 0#32))) t)

/-- The column of start indices both gathers read: the clipped ids, a negative one counted from the end. -/
def idColumn : IVec S8x1 32 :=
  broadcastInDim S8x1 ![0] bcast_S8_S8x1_0
    (select (cmpi .slt (clipped t) (broadcastInDim S8 ![] bcast_S_S8 (constantI S_ 32 0#32)))
      (addi (clipped t) (broadcastInDim S8 ![] bcast_S_S8 (constantI S_ 32 8#32))) (clipped t))

/-- The gate as the host computes it. -/
def gateArr : FVec Ideal S_ .f32 :=
  Host.divf (constant S_ .f32 0x3F800000#32) (addf (constant S_ .f32 0x3F800000#32) (Host.exp (Host.negf cw)))

/-- The first factors. -/
def firstFactors : FVec Ideal S8x16x1024 .bf16 :=
  truncf .bf16
    (concatenate S8x16x1024 1
      [⟨S8x8x1024, broadcastInDim S8x8x1024 ![0, 1, 2] bcast_S1x8x1024_S8x8x1024_0_1_2
          (broadcastInDim S1x8x1024 ![1, 2] bcast_S8x1024_S1x8x1024_1_2 sA)⟩,
        ⟨S8x8x1024, Host.gather gather_S8x8x1024_S8x1_S8x8x1024_12_0_n_n_0_1_181024 eA (idColumn t)⟩]
      concatenates_S8x8x1024_S8x8x1024_S8x16x1024_d1) bitsLt_bf16_f32

/-- The second factors. -/
def secondFactors : FVec Ideal S8x16x1024 .bf16 :=
  truncf .bf16
    (concatenate S8x16x1024 1
      [⟨S8x8x1024, broadcastInDim S8x8x1024 ![0, 1, 2] bcast_S1x8x1024_S8x8x1024_0_1_2
          (broadcastInDim S1x8x1024 ![1, 2] bcast_S8x1024_S1x8x1024_1_2
            (transpose S8x1024 [1, 0]
              (mulf sB (broadcastInDim S1024x8 ![] bcast_S_S1024x8 (mulf (gateArr cw) (constant S_ .f32 0x40000000#32))))
              transposes_S1024x8_S8x1024_1_0))⟩,
        ⟨S8x8x1024, transpose S8x8x1024 [0, 2, 1]
          (mulf (Host.gather gather_S8x1024x8_S8x1_S8x1024x8_12_0_n_n_0_1_110248 eB (idColumn t))
            (broadcastInDim S8x1024x8 ![] bcast_S_S8x1024x8
              (mulf (subf (constant S_ .f32 0x3F800000#32) (gateArr cw)) (constant S_ .f32 0x40000000#32))))
          transposes_S8x1024x8_S8x8x1024_0_2_1⟩]
      concatenates_S8x8x1024_S8x8x1024_S8x16x1024_d1) bitsLt_bf16_f32

end Terms

/-! ## The region finds them -/

section Found
variable (m : (ℓ : Loc nD τ sig) → Buf (Elt Ideal) ℓ) (c : Dev nD)

theorem found_weight :
    (V m c main_v5 : S1024x1024.Idx → EReal)
      = (truncf (F := Ideal) (s := S1024x1024) (φ := .f32) .bf16 (m ((c : Thread nD τ).loc main_arg2)) bitsLt_bf16_f32
          : FVec Ideal S1024x1024 .bf16) := by
  dsimp only [Gen.V]
  simp only [Gen.hostOps0, Gen.hostOps0_1, Gen.hostOps0_2, List.flatten_cons, List.flatten_nil, List.append_nil,
    List.cons_append, List.nil_append]
  after_results

theorem found_bias :
    (V m c main_v6 : S1x1024.Idx → EReal)
      = shapeCast S1x1024 (m ((c : Thread nD τ).loc main_arg3) : S1024.Idx → EReal) shapeCasts_S1024_S1x1024 := by
  dsimp only [Gen.V]
  simp only [Gen.hostOps0, Gen.hostOps0_1, Gen.hostOps0_2, List.flatten_cons, List.flatten_nil, List.append_nil,
    List.cons_append, List.nil_append]
  after_results
  rfl

set_option maxHeartbeats 2000000 in
theorem found_first :
    (V m c main_v17 : S8x16x1024.Idx → EReal)
      = firstFactors (m ((c : Thread nD τ).loc main_arg1)) (m ((c : Thread nD τ).loc main_arg4))
          (m ((c : Thread nD τ).loc main_arg6)) := by
  dsimp only [Gen.V]
  simp only [Gen.hostOps0, Gen.hostOps0_1, Gen.hostOps0_2, List.flatten_cons, List.flatten_nil, List.append_nil,
    List.cons_append, List.nil_append]
  after_results_simp
  rfl

set_option maxHeartbeats 2000000 in
theorem found_second :
    (V m c main_v37 : S8x16x1024.Idx → EReal)
      = secondFactors (m ((c : Thread nD τ).loc main_arg1)) (m ((c : Thread nD τ).loc main_arg8))
          (m ((c : Thread nD τ).loc main_arg5)) (m ((c : Thread nD τ).loc main_arg7)) := by
  dsimp only [Gen.V]
  simp only [Gen.hostOps0, Gen.hostOps0_1, Gen.hostOps0_2, List.flatten_cons, List.flatten_nil, List.append_nil,
    List.cons_append, List.nil_append]
  after_results_simp
  rfl

end Found

end Cert.KernelIdeal.HostArrays

end
-- ==== Proof.Factors.lean ====
/-
  The two factor arrays read at an index.

  Row `r < 8` of batch row `b` of the first factors is row `r` of the shared adapter; row `8 + r` is row `r` of the
  expert that `b`'s task id names. The second factors likewise, each entry carrying its scale: `gate · 2` on the shared
  rows and `(1 - gate) · 2` on the expert's, and read transposed (entry `(r, o)` from the adapter's `(o, r)`).
-/
import proofs.«427450_j83382495084801_3_alg».proof.Proof.HostArrays

set_option maxRecDepth 65536

noncomputable section

open scoped BigOperators

namespace Cert.KernelIdeal.HostArrays

open Cert.KernelIdeal Cert.KernelIdeal.Gen
open Idealize.ShloMosaic Idealize.ShloMosaic.ValueIdx Cert.Colora Cert.Lib.SlabGather

variable (t : IVec S8 32) (cw : FVec Ideal S_ .f32) (sA : FVec Ideal S8x1024 .f32) (sB : FVec Ideal S1024x8 .f32)
  (eA : FVec Ideal S8x8x1024 .f32) (eB : FVec Ideal S8x1024x8 .f32)

/-- The host's gate is the gate of the layer. -/
theorem gateArr_apply : gateArr cw ix0 = gateOf cw := rfl

/-- For ids in `[0, 8)` the start index both gathers read for batch row `b` is `b`'s id. -/
theorem idColumn_apply (hr : ∀ i, 0 ≤ (t i).toInt ∧ (t i).toInt < 8) (b : Fin 8) :
    idColumn t (ix2 b (0 : Fin 1)) = t (ix1 b) := by
  unfold idColumn
  refine (broadcastInDim_apply _ bcast_S8_S8x1_0 _ (ix2 b (0 : Fin 1)) (ix1 b) (fun a => match a with
    | ⟨0, _⟩ => by show b.val = if (8 : Nat) = 1 then 0 else b.val; rw [if_neg (by decide)])).trans ?_
  have hc : clipped t (ix1 b) = t (ix1 b) := Cert.TaskWord.clip_id _ (hr _).1 (hr _).2
  show Scalar.select (IntOp.cmpi .slt (clipped t (ix1 b)) 0#32) (IntOp.addi (clipped t (ix1 b)) 8#32) (clipped t (ix1 b)) = _
  rw [hc]
  exact Cert.TaskWord.wrap_id _ (hr _).1

/-- A scalar laid over a rank-2 array reads the scalar everywhere. -/
theorem splat2_apply (v : FVec Ideal S_ .f32) (j : S1024x8.Idx) :
    (broadcastInDim S1024x8 ![] bcast_S_S1024x8 v : FVec Ideal S1024x8 .f32) j = v ix0 :=
  broadcastInDim_apply _ bcast_S_S1024x8 v j ix0 (fun a => a.elim0)

/-- A scalar laid over a rank-3 array reads the scalar everywhere. -/
theorem splat3_apply (v : FVec Ideal S_ .f32) (j : S8x1024x8.Idx) :
    (broadcastInDim S8x1024x8 ![] bcast_S_S8x1024x8 v : FVec Ideal S8x1024x8 .f32) j = v ix0 :=
  broadcastInDim_apply _ bcast_S_S8x1024x8 v j ix0 (fun a => a.elim0)

/-- A `[8, 1024]` matrix repeated along a new leading axis of extent 8 reads the matrix. -/
theorem repeat_apply (M : FVec Ideal S8x1024 .f32) (b r : Fin 8) (d : Fin 1024) :
    (broadcastInDim S8x8x1024 ![0, 1, 2] bcast_S1x8x1024_S8x8x1024_0_1_2
      (broadcastInDim S1x8x1024 ![1, 2] bcast_S8x1024_S1x8x1024_1_2 M) : FVec Ideal S8x8x1024 .f32) (ix3 b r d)
      = M (ix2 r d) := by
  refine (broadcastInDim_apply _ bcast_S1x8x1024_S8x8x1024_0_1_2 _ (ix3 b r d) (ix3 (0 : Fin 1) r d) (fun a => match a with
    | ⟨0, _⟩ => by show 0 = if (1 : Nat) = 1 then 0 else b.val; rw [if_pos rfl]
    | ⟨1, _⟩ => by show r.val = if (8 : Nat) = 1 then 0 else r.val; rw [if_neg (by decide)]
    | ⟨2, _⟩ => by show d.val = if (1024 : Nat) = 1 then 0 else d.val; rw [if_neg (by decide)])).trans ?_
  exact broadcastInDim_apply _ bcast_S8x1024_S1x8x1024_1_2 M (ix3 (0 : Fin 1) r d) (ix2 r d) (fun a => match a with
    | ⟨0, _⟩ => by show r.val = if (8 : Nat) = 1 then 0 else r.val; rw [if_neg (by decide)]
    | ⟨1, _⟩ => by show d.val = if (1024 : Nat) = 1 then 0 else d.val; rw [if_neg (by decide)])

/-- First factors, shared rows. -/
theorem first_lo (b r : Fin 8) (d : Fin 1024) :
    firstFactors t sA eA (ix3 b (⟨r.val, by have := r.isLt; omega⟩ : Fin 16) d) = sA (ix2 r d) := by
  unfold firstFactors
  rw [truncf_apply]
  refine (concatenate_pair_apply_left (t := S8x16x1024) (s₁ := S8x8x1024) (s₂ := S8x8x1024) (1 : Fin 3) _ _ concatenates_S8x8x1024_S8x8x1024_S8x16x1024_d1
    (ix3 b (⟨r.val, by have := r.isLt; omega⟩ : Fin 16) d) rfl (ix3 b r d) (fun a => by
      match a with
      | ⟨0, _⟩ => rfl
      | ⟨1, _⟩ => rfl
      | ⟨2, _⟩ => rfl)).trans ?_
  exact repeat_apply sA b r d

/-- First factors, the expert's rows. -/
theorem first_hi (hr : ∀ i, 0 ≤ (t i).toInt ∧ (t i).toInt < 8) (b r : Fin 8) (d : Fin 1024) :
    firstFactors t sA eA (ix3 b (⟨8 + r.val, by have := r.isLt; omega⟩ : Fin 16) d) = eA (ix3 (expertOf t b) r d) := by
  unfold firstFactors
  rw [truncf_apply]
  refine (concatenate_pair_apply_right (t := S8x16x1024) (s₁ := S8x8x1024) (s₂ := S8x8x1024) (1 : Fin 3) _ _ concatenates_S8x8x1024_S8x8x1024_S8x16x1024_d1
    (ix3 b (⟨8 + r.val, by have := r.isLt; omega⟩ : Fin 16) d) rfl rfl (ix3 b r d) (fun a ha => by
      match a with
      | ⟨0, _⟩ => rfl
      | ⟨1, _⟩ => exact absurd (Fin.ext rfl) ha
      | ⟨2, _⟩ => rfl) (by show r.val + 8 = 8 + r.val; omega)).trans ?_
  refine (gather_slab_apply (N := 8) (A := 8) (B := 1024) (n := 8) (by decide) _ eA _ (ix3 b r d)).trans ?_
  show eA (ix3 (slabOf 8 _ (idColumn t (ix2 b (0 : Fin 1)))) r d) = _
  rw [idColumn_apply t hr b]
  rfl

/-- Second factors, shared rows: the shared second matrix transposed, times `gate · 2`. -/
theorem second_lo (b r : Fin 8) (o : Fin 1024) :
    secondFactors t cw sB eB (ix3 b (⟨r.val, by have := r.isLt; omega⟩ : Fin 16) o) = sB (ix2 o r) * (gateOf cw * two) := by
  unfold secondFactors
  rw [truncf_apply]
  refine (concatenate_pair_apply_left (t := S8x16x1024) (s₁ := S8x8x1024) (s₂ := S8x8x1024) (1 : Fin 3) _ _ concatenates_S8x8x1024_S8x8x1024_S8x16x1024_d1
    (ix3 b (⟨r.val, by have := r.isLt; omega⟩ : Fin 16) o) rfl (ix3 b r o) (fun a => by
      match a with
      | ⟨0, _⟩ => rfl
      | ⟨1, _⟩ => rfl
      | ⟨2, _⟩ => rfl)).trans ?_
  refine (repeat_apply _ b r o).trans ?_
  refine (transpose_apply [1, 0] _ transposes_S1024x8_S8x1024_1_0 (ix2 r o) (ix2 o r) (fun a => by
    match a with
    | ⟨0, _⟩ => rfl
    | ⟨1, _⟩ => rfl)).trans ?_
  rw [mulf_apply, splat2_apply, mulf_apply, gateArr_apply]
  rfl

/-- Second factors, the expert's rows: the named expert's second matrix transposed, times `(1 - gate) · 2`. -/
theorem second_hi (hr : ∀ i, 0 ≤ (t i).toInt ∧ (t i).toInt < 8) (b r : Fin 8) (o : Fin 1024) :
    secondFactors t cw sB eB (ix3 b (⟨8 + r.val, by have := r.isLt; omega⟩ : Fin 16) o)
      = eB (ix3 (expertOf t b) o r) * ((one - gateOf cw) * two) := by
  unfold secondFactors
  rw [truncf_apply]
  refine (concatenate_pair_apply_right (t := S8x16x1024) (s₁ := S8x8x1024) (s₂ := S8x8x1024) (1 : Fin 3) _ _ concatenates_S8x8x1024_S8x8x1024_S8x16x1024_d1
    (ix3 b (⟨8 + r.val, by have := r.isLt; omega⟩ : Fin 16) o) rfl rfl (ix3 b r o) (fun a ha => by
      match a with
      | ⟨0, _⟩ => rfl
      | ⟨1, _⟩ => exact absurd (Fin.ext rfl) ha
      | ⟨2, _⟩ => rfl) (by show r.val + 8 = 8 + r.val; omega)).trans ?_
  refine (transpose_apply [0, 2, 1] _ transposes_S8x1024x8_S8x8x1024_0_2_1 (ix3 b r o) (ix3 b o r) (fun a => by
    match a with
    | ⟨0, _⟩ => rfl
    | ⟨1, _⟩ => rfl
    | ⟨2, _⟩ => rfl)).trans ?_
  rw [mulf_apply, splat3_apply, mulf_apply, subf_apply, gateArr_apply]
  refine congrArg (· * ((one - gateOf cw) * two)) ?_
  refine (gather_slab_apply (N := 8) (A := 1024) (B := 8) (n := 8) (by decide) _ eB _ (ix3 b o r)).trans ?_
  show eB (ix3 (slabOf 8 _ (idColumn t (ix2 b (0 : Fin 1)))) o r) = _
  rw [idColumn_apply t hr b]
  rfl

/-- THE BODY'S ARITHMETIC AT THE WHOLE ARRAYS: the dense part plus the rank-16 sum through the two factor arrays is
    the fused form of the layer — the sixteen positions split into the shared eight and the expert's eight. -/
theorem fused_from_factors (a0 : FVec Ideal S8x4096x1024 .f32) (a2 : FVec Ideal S1024x1024 .f32) (a3 : FVec Ideal S1024 .f32)
    (hr : ∀ i, 0 ≤ (t i).toInt ∧ (t i).toInt < 8) (b : Fin 8) (s : Fin 4096) (o : Fin 1024) :
    ((∑ d : Fin 1024, a0 (ix3 b s d) * a2 (ix2 o d)) + a3 (ix1 o))
        + ∑ r : Fin 16, (∑ d : Fin 1024, a0 (ix3 b s d) * firstFactors t sA eA (ix3 b r d)) * secondFactors t cw sB eB (ix3 b r o)
      = fusedOf a0 t a2 a3 sA sB eA eB cw (ix3 b s o) := by
  rw [sum_fin16]
  simp only [first_lo, first_hi t sA eA hr, second_lo, second_hi t cw sB eB hr]
  rfl

end Cert.KernelIdeal.HostArrays

end
-- ==== Proof.LibDotLast.lean ====
/-
  The product of an M×K matrix by an N×K matrix contracted on both last axes, read at an index of the result, at the
  ideal (extended-real) values: entry (r, c) is the sum over the contracted coordinate k of x[r, k] * w[c, k] — the
  product `x · wᵀ` without the transpose being formed. Stated for the host's product and for the matrix unit's
  product accumulated into a zero array, which is the same sum because 0 + s = s.
-/
import Idealize.ShloMosaic.Lib.ValueIdx
import Idealize.ShloMosaic.Lib.KernelVsHost
import Idealize.ShloMosaic.PureOps.Ideal.Laws

noncomputable section

open scoped BigOperators

namespace Cert.Lib.DotLast

open Idealize.ShloMosaic Idealize.ShloMosaic.ValueIdx

variable {m k n : Nat} {φ₁ φ₂ : FTy}

/-- The host's product at `(a, b)`: the sum over `c` of `A[a, c] * B[b, c]`. -/
theorem dotGeneral_last_apply (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The matrix unit's product into a zero accumulator at `(a, b)`: the same sum. -/
theorem matmul_zero_last_apply (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant ⟨2, ![m, n]⟩ .f32 0x00000000#32) (ix2 a b) = ∑ c : Fin k, A (ix2 a c) * B (ix2 b c) := by
  subst hd
  rw [matmul_zero_eq_dotGeneral]
  exact dotGeneral_last_apply prec A B a b

end Cert.Lib.DotLast

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.Payload.lean ====
/-
  What the kernel body stores, at one element.

  The body casts its `[1, 1024, 1024]` block of `x` to a matrix `X`, and stores
  `(X · Wᵀ + bias) + (X · Aᵀ) · B` where `W` is the `[1024, 1024]` weight block, `bias` a `[1, 1024]` row laid along
  every row, and `A`, `B` the `[16, 1024]` blocks of the two concatenated factor arrays. Element `(p, q)` is therefore
  `(Σ_d X[p, d] W[q, d] + bias[q]) + Σ_r (Σ_d X[p, d] A[r, d]) B[r, q]`. Changes of float format are the identity on
  the extended reals.
-/
import proofs.«427450_j83382495084801_3_alg».proof.Proof.Gen.KernelIdeal.Skeleton
import proofs.«427450_j83382495084801_3_alg».proof.Proof.LibDotLast
import proofs.«427450_j83382495084801_3_alg».proof.Proof.LibPlainDot
import Idealize.ShloMosaic.Lib.Pipeline.Value
import Idealize.ShloMosaic.Lib.ValueIdx

set_option maxRecDepth 16384

noncomputable section

open scoped BigOperators

namespace Cert.KernelIdeal.Payload

open Cert.KernelIdeal Cert.KernelIdeal.Gen Idealize.ShloMosaic Idealize.ShloMosaic.ValueIdx

variable (x0 : Vec Ideal S1x1024x1024 .f32) (x3 : Vec Ideal S1024x1024 .bf16) (x6 : Vec Ideal S1x1024 .f32)
  (x10 x12 : Vec Ideal S1x16x1024 .bf16)

/-- The block of `x` as a matrix: entry `(p, d)` is the block's `(0, p, d)`. -/
theorem rows_apply (p d : Fin 1024) :
    (truncf .bf16 (shapeCast S1024x1024 x0 shapeCasts_S1x1024x1024_S1024x1024) bitsLt_bf16_f32 : FVec Ideal S1024x1024 .bf16) (ix2 p d)
      = x0 (ix3 (0 : Fin 1) p d) := by
  rw [truncf_apply]
  exact shapeCast_apply x0 _ (ix2 p d) (ix3 (0 : Fin 1) p d) (by
    rw [Shape.rowMajor_val_two, Shape.rowMajor_val_three]; simp)

/-- A `[1, 16, 1024]` factor block as a matrix: entry `(r, d)` is the block's `(0, r, d)`. -/
theorem factor_apply (v : Vec Ideal S1x16x1024 .bf16) (r : Fin 16) (d : Fin 1024) :
    (shapeCast S16x1024 v shapeCasts_S1x16x1024_S16x1024 : FVec Ideal S16x1024 .bf16) (ix2 r d) = v (ix3 (0 : Fin 1) r d) :=
  shapeCast_apply v _ (ix2 r d) (ix3 (0 : Fin 1) r d) (by
    rw [Shape.rowMajor_val_two, Shape.rowMajor_val_three]; simp)

/-- The dense product: `Σ_d X[p, d] W[q, d]`. -/
theorem dense_apply (p q : Fin 1024) :
    matmul (F := Ideal) (φ₁ := .bf16) (φ₂ := .bf16) dot_S1024x1024_S1024x1024_S1024x1024_1_1_0_0_n_n none
        (truncf .bf16 (shapeCast S1024x1024 x0 shapeCasts_S1x1024x1024_S1024x1024) bitsLt_bf16_f32)
        (shapeCast S1024x1024 x3 shapeCasts_S1024x1024_S1024x1024) (constant S1024x1024 .f32 0x00000000#32) (ix2 p q)
      = ∑ d : Fin 1024, x0 (ix3 (0 : Fin 1) p d) * x3 (ix2 q d) := by
  rw [Cert.Lib.DotLast.matmul_zero_last_apply (m := 1024) (k := 1024) (n := 1024)
    dot_S1024x1024_S1024x1024_S1024x1024_1_1_0_0_n_n rfl]
  refine Finset.sum_congr rfl fun d _ => ?_
  rw [rows_apply, shapeCast_self]

/-- The bias row laid along every row: `bias[q]`. -/
theorem bias_apply (p q : Fin 1024) :
    (broadcastTo S1024x1024 (shapeCast S1x1024 x6 shapeCasts_S1x1024_S1x1024) broadcasts_S1x1024_S1024x1024 : FVec Ideal S1024x1024 .f32) (ix2 p q)
      = x6 (ix2 (0 : Fin 1) q) := by
  rw [shapeCast_self]
  exact broadcastTo_apply x6 _ (ix2 p q) (ix2 (0 : Fin 1) q) (fun a => by
    match a with
    | ⟨0, _⟩ => rfl
    | ⟨1, _⟩ => rfl)

/-- The first low-rank product: `Σ_d X[p, d] A[r, d]`. -/
theorem down_apply (p : Fin 1024) (r : Fin 16) :
    matmul (F := Ideal) (φ₁ := .bf16) (φ₂ := .bf16) dot_S1024x1024_S16x1024_S1024x16_1_1_0_0_n_n none
        (truncf .bf16 (shapeCast S1024x1024 x0 shapeCasts_S1x1024x1024_S1024x1024) bitsLt_bf16_f32)
        (shapeCast S16x1024 x10 shapeCasts_S1x16x1024_S16x1024) (constant S1024x16 .f32 0x00000000#32) (ix2 p r)
      = ∑ d : Fin 1024, x0 (ix3 (0 : Fin 1) p d) * x10 (ix3 (0 : Fin 1) r d) := by
  rw [Cert.Lib.DotLast.matmul_zero_last_apply (m := 1024) (k := 1024) (n := 16)
    dot_S1024x1024_S16x1024_S1024x16_1_1_0_0_n_n rfl]
  refine Finset.sum_congr rfl fun d _ => ?_
  rw [rows_apply, factor_apply]

/-- The second low-rank product, of any `[1024, 16]` matrix `H`: `Σ_r H[p, r] B[r, q]`. -/
theorem up_apply (H : FVec Ideal S1024x16 .f32) (p q : Fin 1024) :
    matmul (F := Ideal) (φ₁ := .bf16) (φ₂ := .bf16) dot_S1024x16_S16x1024_S1024x1024_1_0_0_1_n_n none (truncf .bf16 H bitsLt_bf16_f32)
        (shapeCast S16x1024 x12 shapeCasts_S1x16x1024_S16x1024) (constant S1024x1024 .f32 0x00000000#32) (ix2 p q)
      = ∑ r : Fin 16, H (ix2 p r) * x12 (ix3 (0 : Fin 1) r q) := by
  rw [Cert.LibPlainDot.matmul_zero_plain_apply (M := 1024) (K := 16) (N := 1024)
    dot_S1024x16_S16x1024_S1024x1024_1_0_0_1_n_n rfl]
  refine Finset.sum_congr rfl fun r _ => ?_
  rw [truncf_apply, factor_apply]

/-- THE STORED VALUE at `(0, p, q)`. -/
theorem pay_apply (p q : Fin 1024) :
    k0_pay1 (F := Ideal) x0 x3 x6 x10 x12 (ix3 (0 : Fin 1) p q)
      = ((∑ d : Fin 1024, x0 (ix3 (0 : Fin 1) p d) * x3 (ix2 q d)) + x6 (ix2 (0 : Fin 1) q))
        + ∑ r : Fin 16, (∑ d : Fin 1024, x0 (ix3 (0 : Fin 1) p d) * x10 (ix3 (0 : Fin 1) r d)) * x12 (ix3 (0 : Fin 1) r q) := by
  unfold k0_pay1
  refine (shapeCast_apply _ shapeCasts_S1024x1024_S1x1024x1024 (ix3 (0 : Fin 1) p q) (ix2 p q) (by
    rw [Shape.rowMajor_val_two, Shape.rowMajor_val_three]; simp)).trans ?_
  rw [addf_apply, addf_apply, dense_apply, bias_apply, up_apply]
  simp only [down_apply]

end Cert.KernelIdeal.Payload

end
-- ==== Proof.KernelValue.lean ====
/-
  The kernel's result array is the fused form of the layer.

  The grid is 8 × 4: point `t` handles batch row `bAt t` and the 1024 sequence positions starting at
  `1024 · (second grid coordinate)`. At that point the body's five input blocks are: rows of `x`, the whole weight, the
  bias row, and batch row `bAt t` of the two factor arrays. The value stored at block position `(0, p, q)` is the
  fused form at array position `(bAt t, sAt t p, q)` — the position the output window's block puts it at. The
  32 blocks tile the `[8, 4096, 1024]` array, so after the run the array is the fused form everywhere.
-/
import proofs.«427450_j83382495084801_3_alg».proof.Proof.Gen.KernelIdeal.Value
import proofs.«427450_j83382495084801_3_alg».proof.Proof.Factors
import proofs.«427450_j83382495084801_3_alg».proof.Proof.Payload

set_option maxRecDepth 65536

noncomputable section

open scoped BigOperators

namespace Cert.KernelIdeal.KValue

open Cert.KernelIdeal Cert.KernelIdeal.Gen Cert.KernelIdeal.HostArrays
open Idealize.ShloMosaic Idealize.ShloMosaic.TcCoe Idealize.SL.Sem Idealize.ShloMosaic.ValueIdx Cert.Colora
open Idealize.ShloMosaic.Pipeline (Dat)

variable (m : (ℓ : Loc nD τ sig) → Buf (Elt Ideal) ℓ) (ρ : Dev nD → PrngReg)

/-- The fused form of the layer at the kernel's argument arrays on core `c`. -/
def layer (c : Dev nD) : S8x4096x1024.Idx → EReal :=
  fusedOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The index maps over the grid -/

/-- The printed index maps, decided over the 32 points: the block of `x` moves with the output's, the weight and
    the bias stay at block 0, the factor arrays follow the output's batch coordinate. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (2 : Fin 3) = 0 :=
  (by decide +kernel : ∀ t : Fin grid0.N, _)

theorem out_b_lt : ∀ t : Fin cfg0.N, win0_5.index t (0 : Fin 3) < 8 :=
  (by decide +kernel : ∀ t : Fin grid0.N, win0_5.index t (0 : Fin 3) < 8)
theorem out_s_lt : ∀ t : Fin cfg0.N, win0_5.index t (1 : Fin 3) < 4 :=
  (by decide +kernel : ∀ t : Fin grid0.N, win0_5.index t (1 : Fin 3) < 4)

/-- Every block of the output array is some point's. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- The batch row point `t` handles. -/
def bAt (t : Fin cfg0.N) : Fin 8 := ⟨win0_5.index t (0 : Fin 3), out_b_lt t⟩
/-- The sequence position block row `p` of point `t` sits at. -/
def sAt (t : Fin cfg0.N) (p : Fin 1024) : Fin 4096 :=
  ⟨win0_5.index t (1 : Fin 3) * 1024 + p.val, by have := out_s_lt t; have := p.isLt; omega⟩

/-! ## The input blocks at a point -/

/-- The block of `x`: rows `sAt t ·` of batch row `bAt t`. -/
theorem blk0 (c : Dev nD) (t : Fin cfg0.N) (p d : Fin 1024) :
    (iblk m c 0 t : Vec Ideal S1x1024x1024 .f32) (ix3 (0 : Fin 1) p d)
      = (m ((c : Thread nD τ).loc main_arg0) : S8x4096x1024.Idx → EReal) (ix3 (bAt t) (sAt t p) d) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = win0_5.index t (0 : Fin 3); omega
  | ⟨1, _⟩ => show win0_0.index t (1 : Fin 3) * 1024 + 1 * p.val = win0_5.index t (1 : Fin 3) * 1024 + p.val; omega
  | ⟨2, _⟩ => show win0_0.index t (2 : Fin 3) * 1024 + 1 * d.val = d.val; omega

/-- The weight block is the whole weight. -/
theorem blk1 (c : Dev nD) (t : Fin cfg0.N) (q d : Fin 1024) :
    (iblk m c 1 t : Vec Ideal S1024x1024 .bf16) (ix2 q d)
      = (m ((c : Thread nD τ).loc main_arg2) : S1024x1024.Idx → EReal) (ix2 q d) := by
  obtain ⟨-, -, -, e0, e1, -⟩ := idx_facts t
  unfold iblk
  rw [View.read_apply]
  show (V m c main_v5 : S1024x1024.Idx → EReal) _ = _
  rw [found_weight m c, truncf_apply]
  congr 1
  funext a
  apply Fin.ext
  match a with
  | ⟨0, _⟩ => show win0_1.index t (0 : Fin 2) * 1024 + 1 * q.val = q.val; omega
  | ⟨1, _⟩ => show win0_1.index t (1 : Fin 2) * 1024 + 1 * d.val = d.val; omega

/-- The bias block is the bias as a row. -/
theorem blk2 (c : Dev nD) (t : Fin cfg0.N) (q : Fin 1024) :
    (iblk m c 2 t : Vec Ideal S1x1024 .f32) (ix2 (0 : Fin 1) q)
      = (m ((c : Thread nD τ).loc main_arg3) : S1024.Idx → EReal) (ix1 q) := by
  obtain ⟨-, -, -, -, -, e0, e1, -⟩ := idx_facts t
  unfold iblk
  rw [View.read_apply]
  have he : ((cfg0.win 2).blk t).view.emb (ix2 (0 : Fin 1) q) = ix2 (0 : Fin 1) q := by
    funext a
    apply Fin.ext
    match a with
    | ⟨0, _⟩ => show win0_2.index t (0 : Fin 2) * 1 + 1 * 0 = 0; omega
    | ⟨1, _⟩ => show win0_2.index t (1 : Fin 2) * 1024 + 1 * q.val = q.val; omega
  rw [he]
  show (V m c main_v6 : S1x1024.Idx → EReal) _ = _
  rw [found_bias m c]
  exact shapeCast_apply _ _ (ix2 (0 : Fin 1) q) (ix1 q) (by
    rw [Shape.rowMajor_val_one, Shape.rowMajor_val_two]; simp)

/-- The first-factor block: batch row `bAt t` of the first factors. -/
theorem blk3 (c : Dev nD) (t : Fin cfg0.N) (r : Fin 16) (d : Fin 1024) :
    (iblk m c 3 t : Vec Ideal S1x16x1024 .bf16) (ix3 (0 : Fin 1) r d)
      = firstFactors (m ((c : Thread nD τ).loc main_arg1)) (m ((c : Thread nD τ).loc main_arg4))
          (m ((c : Thread nD τ).loc main_arg6)) (ix3 (bAt t) r d) := by
  obtain ⟨-, -, -, -, -, -, -, e0, e1, e2, -⟩ := idx_facts t
  unfold iblk
  rw [View.read_apply]
  show (V m c main_v17 : S8x16x1024.Idx → EReal) _ = _
  rw [found_first m c]
  congr 1
  funext a
  apply Fin.ext
  match a with
  | ⟨0, _⟩ => show win0_3.index t (0 : Fin 3) * 1 + 1 * 0 = win0_5.index t (0 : Fin 3); omega
  | ⟨1, _⟩ => show win0_3.index t (1 : Fin 3) * 16 + 1 * r.val = r.val; omega
  | ⟨2, _⟩ => show win0_3.index t (2 : Fin 3) * 1024 + 1 * d.val = d.val; omega

/-- The second-factor block: batch row `bAt t` of the second factors. -/
theorem blk4 (c : Dev nD) (t : Fin cfg0.N) (r : Fin 16) (o : Fin 1024) :
    (iblk m c 4 t : Vec Ideal S1x16x1024 .bf16) (ix3 (0 : Fin 1) r o)
      = secondFactors (m ((c : Thread nD τ).loc main_arg1)) (m ((c : Thread nD τ).loc main_arg8))
          (m ((c : Thread nD τ).loc main_arg5)) (m ((c : Thread nD τ).loc main_arg7)) (ix3 (bAt t) r o) := by
  obtain ⟨-, -, -, -, -, -, -, -, -, -, e0, e1, e2, -⟩ := idx_facts t
  unfold iblk
  rw [View.read_apply]
  show (V m c main_v37 : S8x16x1024.Idx → EReal) _ = _
  rw [found_second m c]
  congr 1
  funext a
  apply Fin.ext
  match a with
  | ⟨0, _⟩ => show win0_4.index t (0 : Fin 3) * 1 + 1 * 0 = win0_5.index t (0 : Fin 3); omega
  | ⟨1, _⟩ => show win0_4.index t (1 : Fin 3) * 16 + 1 * r.val = r.val; omega
  | ⟨2, _⟩ => show win0_4.index t (2 : Fin 3) * 1024 + 1 * o.val = o.val; omega

/-! ## What a point stores, and where -/

/-- THE BODY AT POINT `t`, at block position `y`: the fused form at the array position the output window's block
    gives `y`. -/
theorem body_eq (hr : ∀ (c : Dev nD) (i : S8.Idx), 0 ≤ ((m ((c : Thread nD τ).loc main_arg1) : IVec S8 32) i).toInt
      ∧ ((m ((c : Thread nD τ).loc main_arg1) : IVec S8 32) i).toInt < 8)
    (c : Dev nD) (t : Fin cfg0.N) (y : S1x1024x1024.Idx) :
    k0_pay1 (F := Ideal) (iblk m c 0 t) (iblk m c 1 t) (iblk m c 2 t) (iblk m c 3 t) (iblk m c 4 t) y
      = layer m c (((cfg0.win 5).blk t).view.emb y) := by
  obtain ⟨z, p, q, rfl⟩ : ∃ (z : Fin 1) (p q : Fin 1024), y = ix3 z p q := ⟨y 0, y 1, y 2, eq_ix3 y⟩
  obtain rfl : z = 0 := Subsingleton.elim _ _
  obtain ⟨-, -, -, -, -, -, -, -, -, -, -, -, -, e2⟩ := idx_facts t
  have hemb : ((cfg0.win 5).blk t).view.emb (ix3 (0 : Fin 1) p q) = ix3 (bAt t) (sAt t p) q := by
    funext a
    apply Fin.ext
    match a with
    | ⟨0, _⟩ => show win0_5.index t (0 : Fin 3) * 1 + 1 * 0 = win0_5.index t (0 : Fin 3); omega
    | ⟨1, _⟩ => show win0_5.index t (1 : Fin 3) * 1024 + 1 * p.val = win0_5.index t (1 : Fin 3) * 1024 + p.val; omega
    | ⟨2, _⟩ => show win0_5.index t (2 : Fin 3) * 1024 + 1 * q.val = q.val; omega
  rw [hemb, Payload.pay_apply]
  simp only [blk0 m c t, blk1 m c t, blk2 m c t, blk3 m c t, blk4 m c t]
  exact fused_from_factors _ _ _ _ _ _ _ _ _ (hr c) (bAt t) (sAt t p) q

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of the fused form. -/
theorem flushed_eq (hr : ∀ (c : Dev nD) (i : S8.Idx), 0 ≤ ((m ((c : Thread nD τ).loc main_arg1) : IVec S8 32) i).toInt
      ∧ ((m ((c : Thread nD τ).loc main_arg1) : IVec S8 32) i).toInt < 8)
    (c : Dev nD) (t : Fin cfg0.N) :
    (dats m 0 c).flushed 5 t = ((cfg0.win 5).blk t).view.read (Elt Ideal) (layer m c) := by
  rw [Cert.KernelIdeal.Value.flushed5]
  unfold out0_5
  rw [View.canon_unit_zero hz3]
  simp only [View.ld_unit_zero (S := S1x1024x1024) hz3, View.ld_unit_zero (S := S1024x1024) hz2,
    View.ld_unit_zero (S := S1x1024) hz2, View.ld_unit_zero (S := S1x16x1024) hz3]
  funext j
  exact body_eq m hr c t j

/-! ## The blocks tile the array -/

/-- An index is in point `t`'s block iff each coordinate is in the block's range on its axis. -/
theorem mem_blk5 (t : Fin cfg0.N) (i : S8x4096x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v38).slice (win0_5.rect t)).set ↔ _
  rw [View.set_slice_whole, Rect.mem_set_unit]
  exact Iff.rfl

/-- Every index of the array is in some point's block: batch row `i 0`, sequence block `i 1 / 1024`. -/
theorem cover (i : S8x4096x1024.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- THE ARRAY AFTER THE RUN is the fused form. -/
theorem final (hr : ∀ (c : Dev nD) (i : S8.Idx), 0 ≤ ((m ((c : Thread nD τ).loc main_arg1) : IVec S8 32) i).toInt
      ∧ ((m ((c : Thread nD τ).loc main_arg1) : IVec S8 32) i).toInt < 8) (c : Dev nD) :
    (dats m 0 c).arrAt 5 cfg0.N = layer m c :=
  (dats m 0 c).arrAt_eq_of_cover 5 (layer m c) (fun t _ => flushed_eq m hr c t) cover

/-- The run, read: the result array at the fused form of the arguments, the arguments unchanged. -/
theorem run (hr : ∀ (c : Dev nD) (i : S8.Idx), 0 ≤ ((m ((c : Thread nD τ).loc main_arg1) : IVec S8 32) i).toInt
      ∧ ((m ((c : Thread nD τ).loc main_arg1) : IVec S8 32) i).toInt < 8) :
    θ_run defs (onTc (τ := τ) (main (F := Ideal))) ⟨m, fun _ => 0, ρ⟩ fun r => ∀ c : Dev nD,
      r.2.mem ((c : Thread nD τ).loc main_v38) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m hr c), (h c).2⟩)
    (Cert.KernelIdeal.Value.run_blocks m ρ)

end Cert.KernelIdeal.KValue

end
-- ==== Proof.RefValue.lean ====
/-
  The reference computes the split form of the layer.

  Read one operation at a time, its result at `(b, s, o)` is the dense part, plus the gate times twice the shared
  adapter's output, plus the complement of the gate times twice the output of the expert that row `b`'s task id
  names. The two expert tables are gathered along their first axis at the wrapped ids; for a nonnegative id the wrap
  does nothing, so the gathered slab is the one `expertOf` names.
-/
import proofs.«427450_j83382495084801_3_alg».proof.Proof.Gen.ReferenceIdeal.Read
import proofs.«427450_j83382495084801_3_alg».proof.Proof.Layer
import proofs.«427450_j83382495084801_3_alg».proof.Proof.TaskWord

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Colora Cert.Lib.SlabGather

variable (x0 : (⟨S8x4096x1024, .f32⟩ : BufTy).Contents (Elt Ideal)) (x1 : (⟨S8, .i32⟩ : BufTy).Contents (Elt Ideal))
  (x2 : (⟨S1024x1024, .f32⟩ : BufTy).Contents (Elt Ideal)) (x3 : (⟨S1024, .f32⟩ : BufTy).Contents (Elt Ideal))
  (x4 : (⟨S8x1024, .f32⟩ : BufTy).Contents (Elt Ideal)) (x5 : (⟨S1024x8, .f32⟩ : BufTy).Contents (Elt Ideal))
  (x6 : (⟨S8x8x1024, .f32⟩ : BufTy).Contents (Elt Ideal)) (x7 : (⟨S8x1024x8, .f32⟩ : BufTy).Contents (Elt Ideal))
  (x8 : (⟨S_, .f32⟩ : BufTy).Contents (Elt Ideal))

/-- The column of wrapped ids the first gather reads, at row `b`, is the id itself when ids are nonnegative. -/
theorem wrapped_first (hr : ∀ i, 0 ≤ (x1 i).toInt) (b : Fin 8) :
    val_main_v13 (F := Ideal) x1 (ix2 b (0 : Fin 1)) = x1 (ix1 b) := by
  rw [val_main_v13_apply]
  have e : idx_main_v13 (ix2 b (0 : Fin 1)) = ix1 b := funext fun a => Fin.ext (by match a with | ⟨0, _⟩ => rfl)
  rw [e, val_main_v12_apply]
  exact Cert.TaskWord.wrap_id _ (hr _)

/-- The column the second gather reads, likewise. -/
theorem wrapped_second (hr : ∀ i, 0 ≤ (x1 i).toInt) (b : Fin 8) :
    val_main_v20 (F := Ideal) x1 (ix2 b (0 : Fin 1)) = x1 (ix1 b) := by
  rw [val_main_v20_apply]
  have e : idx_main_v20 (ix2 b (0 : Fin 1)) = ix1 b := funext fun a => Fin.ext (by match a with | ⟨0, _⟩ => rfl)
  rw [e, val_main_v19_apply]
  exact Cert.TaskWord.wrap_id _ (hr _)

/-- The gathered first factors: row `b` holds the slab of the expert its id names. -/
theorem expertA_apply (hr : ∀ i, 0 ≤ (x1 i).toInt) (b : Fin 8) (r : Fin 8) (d : Fin 1024) :
    val_main_v14 (F := Ideal) x1 x6 (ix3 b r d) = x6 (ix3 (expertOf x1 b) r d) := by
  unfold val_main_v14
  refine (gather_slab_apply (N := 8) (A := 8) (B := 1024) (n := 8) (by decide) _ x6 _ (ix3 b r d)).trans ?_
  show x6 (ix3 (slabOf 8 _ (val_main_v13 (F := Ideal) x1 (ix2 b (0 : Fin 1)))) r d) = _
  rw [wrapped_first x1 hr b]
  rfl

/-- The gathered second factors likewise. -/
theorem expertB_apply (hr : ∀ i, 0 ≤ (x1 i).toInt) (b : Fin 8) (o : Fin 1024) (r : Fin 8) :
    val_main_v21 (F := Ideal) x1 x7 (ix3 b o r) = x7 (ix3 (expertOf x1 b) o r) := by
  unfold val_main_v21
  refine (gather_slab_apply (N := 8) (A := 1024) (B := 8) (n := 8) (by decide) _ x7 _ (ix3 b o r)).trans ?_
  show x7 (ix3 (slabOf 8 _ (val_main_v20 (F := Ideal) x1 (ix2 b (0 : Fin 1)))) o r) = _
  rw [wrapped_second x1 hr b]
  rfl

/-- THE REFERENCE'S RESULT is the split form of the layer at its arguments. -/
theorem ref_eq (hr : ∀ i, 0 ≤ (x1 i).toInt) :
    val_main_v36 (F := Ideal) x0 x1 x2 x3 x4 x5 x6 x7 x8 = splitOf x0 x1 x2 x3 x4 x5 x6 x7 x8 := by
  funext i
  obtain ⟨b, s, o, rfl⟩ : ∃ (b : Fin 8) (s : Fin 4096) (o : Fin 1024), i = ix3 b s o := ⟨i 0, i 1, i 2, eq_ix3 i⟩
  have e0l : ∀ k, lidx_main_v0 (ix3 b s o) k = ix3 b s k := fun k => funext fun a => Fin.ext (by
    match a with | ⟨0, _⟩ => rfl | ⟨1, _⟩ => rfl | ⟨2, _⟩ => rfl)
  have e0r : ∀ k, ridx_main_v0 (ix3 b s o) k = ix2 o k := fun k => funext fun a => Fin.ext (by
    match a with | ⟨0, _⟩ => rfl | ⟨1, _⟩ => rfl)
  have e1 : idx_main_v1 (idx_main_v2 (ix3 b s o)) = ix1 o := funext fun a => Fin.ext (by
    match a with | ⟨0, _⟩ => rfl)
  have e4l : ∀ (r : Fin 8) k, lidx_main_v4 (lidx_main_v5 (ix3 b s o) r) k = ix3 b s k := fun r k => funext fun a => Fin.ext (by
    match a with | ⟨0, _⟩ => rfl | ⟨1, _⟩ => rfl | ⟨2, _⟩ => rfl)
  have e4r : ∀ (r : Fin 8) k, ridx_main_v4 (lidx_main_v5 (ix3 b s o) r) k = ix2 r k := fun r k => funext fun a => Fin.ext (by
    match a with | ⟨0, _⟩ => rfl | ⟨1, _⟩ => rfl)
  have e5r : ∀ (r : Fin 8), ridx_main_v5 (ix3 b s o) r = ix2 o r := fun r => funext fun a => Fin.ext (by
    match a with | ⟨0, _⟩ => rfl | ⟨1, _⟩ => rfl)
  have e22l : ∀ (r : Fin 8) k, lidx_main_v22 (lidx_main_v23 (ix3 b s o) r) k = ix3 b s k := fun r k => funext fun a => Fin.ext (by
    match a with | ⟨0, _⟩ => rfl | ⟨1, _⟩ => rfl | ⟨2, _⟩ => rfl)
  have e22r : ∀ (r : Fin 8) k, ridx_main_v22 (lidx_main_v23 (ix3 b s o) r) k = ix3 b r k := fun r k => funext fun a => Fin.ext (by
    match a with | ⟨0, _⟩ => rfl | ⟨1, _⟩ => rfl | ⟨2, _⟩ => rfl)
  have e23r : ∀ (r : Fin 8), ridx_main_v23 (ix3 b s o) r = ix3 b o r := fun r => funext fun a => Fin.ext (by
    match a with | ⟨0, _⟩ => rfl | ⟨1, _⟩ => rfl | ⟨2, _⟩ => rfl)
  simp only [val_main_v36_apply, val_main_v32_apply, val_main_v35_apply, val_main_v3_apply, val_main_v31_apply,
    val_main_v0_apply, val_main_v2_apply, val_main_v1_apply, val_main_v30_apply, val_main_v29_apply, val_main_cst_5_apply,
    val_main_v28_apply, val_main_cst_4_apply, val_main_v27_apply, val_main_v26_apply, val_main_v7_apply, val_main_v5_apply,
    val_main_v4_apply, val_main_v6_apply, val_main_cst_apply, val_main_v34_apply, val_main_v33_apply, val_main_cst_6_apply,
    val_main_v25_apply, val_main_v23_apply, val_main_v22_apply, val_main_v24_apply, val_main_cst_3_apply,
    e0l, e0r, e1, e4l, e4r, e5r, e22l, e22r, e23r, expertA_apply x1 x6 hr, expertB_apply x1 x7 hr]
  rfl

end Cert.ReferenceIdeal.RefValue

end
-- ==== Proof.PreDecode.lean ====
/-
  The precondition read back: every entry of the eight float arguments is a real number, and every task id lies in
  `[0, 8)`.

  The printed predicate is a conjunction of ten one-bit words, each an "all" over an array: eight of the form
  `|a| < +inf` entry by entry, and for the ids `0 ≤ id` and `id < 8` as signed words. An extended real whose absolute
  value is below `+inf` is neither infinity, hence a real.
-/
import proofs.«427450_j83382495084801_3_alg».proof.Pre_finite_inputs
import Idealize.ShloMosaic.Lib.ReduceAll
import Idealize.ShloMosaic.Lib.ValueIdx
import Idealize.ShloMosaic.PureOps.Ideal.Laws

set_option maxRecDepth 16384

noncomputable section

namespace Cert.PreDecode

open Idealize.ShloMosaic Cert.Pre_finite_inputs

variable [Facts]

instance : Subsingleton S_.Idx := ⟨fun _ _ => funext fun d => d.elim0⟩

/-- An extended real whose absolute value `max a (-a)` is strictly below the f32 word of `+inf` is a real number. -/
theorem real_of_abs_lt_inf (a : EReal)
    (h : Ideal.cmp .olt (max a (-a)) (Ideal.ofBits .f32 0x7F800000#32) = 1#1) : ∃ v : ℝ, a = v := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- "All entries of `|x|` are below `+inf`" gives a real witness at every index. -/
theorem real_of_all {s : Shape} {axes : List (Fin s.rank)} (x bnd : FVec Ideal s .f32)
    (hbnd : ∀ i, bnd i = Ideal.ofBits .f32 0x7F800000#32) (hr : s.ReducesTo axes S_)
    (hu : 0 < S_.numel) (init : IVec S_ 1)
    (e : Host.reduce IntOp.andi (cmpf .olt (Host.absf x) bnd) init hr hu ValueIdx.ix0 = 1#1) (i : s.Idx) :
    ∃ v : ℝ, x i = v := by
  have h := Host.reduce_andi_all _ init hr hu _ e i
  have h' : Ideal.cmp .olt (max (x i) (-(x i))) (bnd i) = 1#1 := h
  rw [hbnd] at h'
  exact real_of_abs_lt_inf _ h'

/-- "All ids are at least the word 0" gives a nonnegative signed value at every index. -/
theorem nonneg_of_all {axes : List (Fin S8.rank)} (t : IVec S8 32) (hr : S8.ReducesTo axes S_) (hu : 0 < S_.numel)
    (hb : S_.BroadcastsInDim S8 ![]) (init : IVec S_ 1)
    (e : Host.reduce IntOp.andi (cmpi .sge t (broadcastInDim S8 ![] hb (constantI S_ 32 0#32))) init hr hu ValueIdx.ix0 = 1#1)
    (i : S8.Idx) : 0 ≤ (t i).toInt := by
  have h := Host.reduce_andi_all _ init hr hu _ e i
  have h' : IntOp.cmpi .sge (t i) 0#32 = 1#1 := h
  rw [IntOp.cmpi_sge] at h'
  simpa using h'

/-- "All ids are below the word 8" gives a signed value below 8 at every index. -/
theorem lt_of_all {axes : List (Fin S8.rank)} (t : IVec S8 32) (hr : S8.ReducesTo axes S_) (hu : 0 < S_.numel)
    (hb : S_.BroadcastsInDim S8 ![]) (init : IVec S_ 1)
    (e : Host.reduce IntOp.andi (cmpi .slt t (broadcastInDim S8 ![] hb (constantI S_ 32 8#32))) init hr hu ValueIdx.ix0 = 1#1)
    (i : S8.Idx) : (t i).toInt < 8 := by
  have h := Host.reduce_andi_all _ init hr hu _ e i
  have h' : IntOp.cmpi .slt (t i) 8#32 = 1#1 := h
  rw [IntOp.cmpi_slt] at h'
  have e8 : (8#32 : BitVec 32).toInt = 8 := by decide
  rw [e8] at h'
  exact h'

/-- THE PRECONDITION DECODED. -/
theorem decode (a0 : FVec Ideal S8x4096x1024 .f32) (a1 : IVec S8 32) (a2 : FVec Ideal S1024x1024 .f32)
    (a3 : FVec Ideal S1024 .f32) (a4 : FVec Ideal S8x1024 .f32) (a5 : FVec Ideal S1024x8 .f32)
    (a6 : FVec Ideal S8x8x1024 .f32) (a7 : FVec Ideal S8x1024x8 .f32) (a8 : FVec Ideal S_ .f32)
    (h : fn (F := Ideal) a0 a1 a2 a3 a4 a5 a6 a7 a8 = fun _ => 1#1) :
    (∀ i, ∃ v : ℝ, a0 i = v) ∧ (∀ i, ∃ v : ℝ, a2 i = v) ∧ (∀ i, ∃ v : ℝ, a3 i = v) ∧ (∀ i, ∃ v : ℝ, a4 i = v)
      ∧ (∀ i, ∃ v : ℝ, a5 i = v) ∧ (∀ i, ∃ v : ℝ, a6 i = v) ∧ (∀ i, ∃ v : ℝ, a7 i = v) ∧ (∀ i, ∃ v : ℝ, a8 i = v)
      ∧ (∀ i, 0 ≤ (a1 i).toInt ∧ (a1 i).toInt < 8) := by
  have e := congrFun h ValueIdx.ix0
  dsimp only [fn, fn_part1, fn_part2, andi] at e
  simp only [IntOp.andi_eq_one] at e
  obtain ⟨⟨⟨⟨⟨⟨⟨⟨⟨h0, h2⟩, h3⟩, h4⟩, h5⟩, h6⟩, h7⟩, h8⟩, hge⟩, hlt⟩ := e
  exact ⟨real_of_all _ _ (fun _ => rfl) _ _ _ h0, real_of_all _ _ (fun _ => rfl) _ _ _ h2,
    real_of_all _ _ (fun _ => rfl) _ _ _ h3, real_of_all _ _ (fun _ => rfl) _ _ _ h4,
    real_of_all _ _ (fun _ => rfl) _ _ _ h5, real_of_all _ _ (fun _ => rfl) _ _ _ h6,
    real_of_all _ _ (fun _ => rfl) _ _ _ h7, real_of_all _ _ (fun _ => rfl) _ _ _ h8,
    fun i => ⟨nonneg_of_all _ _ _ _ _ hge i, lt_of_all _ _ _ _ _ hlt i⟩⟩

end Cert.PreDecode

end
-- ==== Proof.lean ====
/-
  A dense layer with two rank-8 adapters mixed by a gate: the fused kernel against the reference.

  For `x : [8, 4096, 1024]`, a weight `W`, a bias, a shared adapter `(A_s, B_s)`, eight expert adapters of which batch
  row `b` uses the one its task id names, and the gate `g = 1 / (1 + exp (-collab_w))`, the reference computes
      x·Wᵀ + bias + g · (2 · (x·A_sᵀ)·B_sᵀ) + (1 - g) · (2 · (x·A_eᵀ)·B_eᵀ).
  The kernel concatenates the two adapters into one rank-16 pair per batch row, folding `g · 2` and `(1 - g) · 2` into
  the second factors beforehand, and stores `(x·Wᵀ + bias) + (x·A_catᵀ)·B_cat` block by block over an 8 × 4 grid.

  Both are read as extended reals. They agree when every float entry is a real number — a real factor moves across a
  finite sum of reals — and when the task ids lie in `[0, 8)`: the kernel clips an id into `[0, 7]` while the
  reference counts a negative id from the end, and these select the same expert exactly on that range. The precondition
  states both. Changes of float format are the identity on the extended reals, and the matrix unit's products into a
  zero accumulator are the host's products.

  The frames of the two kernel programs are the generated ones; the reference's is its generated run with the result
  dropped. The idealization changed nothing in the kernel, so the preservation claim is trivial.
-/
import proofs.«427450_j83382495084801_3_alg».proof.Defs
import proofs.«427450_j83382495084801_3_alg».proof.Proof.Gen.Kernel
import proofs.«427450_j83382495084801_3_alg».proof.Proof.Gen.Kernel.Skeleton
import proofs.«427450_j83382495084801_3_alg».proof.Proof.Gen.Kernel.Launch
import proofs.«427450_j83382495084801_3_alg».proof.Proof.Gen.Kernel.Points
import proofs.«427450_j83382495084801_3_alg».proof.Proof.Gen.Kernel.Frame
import proofs.«427450_j83382495084801_3_alg».proof.Proof.Gen.KernelIdeal
import proofs.«427450_j83382495084801_3_alg».proof.Proof.Gen.KernelIdeal.Skeleton
import proofs.«427450_j83382495084801_3_alg».proof.Proof.Gen.KernelIdeal.Launch
import proofs.«427450_j83382495084801_3_alg».proof.Proof.Gen.KernelIdeal.Points
import proofs.«427450_j83382495084801_3_alg».proof.Proof.Gen.KernelIdeal.Frame
import proofs.«427450_j83382495084801_3_alg».proof.Proof.Gen.ReferenceIdeal
import proofs.«427450_j83382495084801_3_alg».proof.Proof.Gen.Pre_finite_inputs
import proofs.«427450_j83382495084801_3_alg».proof.Proof.Gen.KernelIdeal.Value
import proofs.«427450_j83382495084801_3_alg».proof.Proof.Gen.ReferenceIdeal.Run
import proofs.«427450_j83382495084801_3_alg».proof.Proof.Gen.ReferenceIdeal.Read
import Idealize.ShloMosaic.Adequacy
import Idealize.ShloMosaic.Init
import proofs.«427450_j83382495084801_3_alg».proof.Proof.KernelValue
import proofs.«427450_j83382495084801_3_alg».proof.Proof.RefValue
import proofs.«427450_j83382495084801_3_alg».proof.Proof.PreDecode

noncomputable section

namespace Cert.Proof

open Idealize.ShloMosaic Idealize.ShloMosaic.TcCoe Idealize.SL.Sem

namespace LayerClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the kernel's result array is the fused form of the layer and the reference's the split
    form, of arguments that agree; on real data with ids in range the two forms are one array. -/
theorem algebraic : Cert.algebraic_KernelIdeal_ReferenceIdeal := by
  intro m ρ m' ρ' hpre hagree
  have hd := fun c => Cert.PreDecode.decode _ _ _ _ _ _ _ _ _ (hpre c)
  have hr : ∀ (c : Dev Cert.KernelIdeal.nD) (i : Cert.KernelIdeal.S8.Idx),
      0 ≤ ((m ((c : Thread Cert.KernelIdeal.nD Cert.KernelIdeal.τ).loc Cert.KernelIdeal.main_arg1) : IVec Cert.KernelIdeal.S8 32) i).toInt
      ∧ ((m ((c : Thread Cert.KernelIdeal.nD Cert.KernelIdeal.τ).loc Cert.KernelIdeal.main_arg1) : IVec Cert.KernelIdeal.S8 32) i).toInt < 8 :=
    fun c i => (hd c).2.2.2.2.2.2.2.2 i
  refine ⟨fun c => Cert.KernelIdeal.KValue.layer m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  rw [g0, g1, g2, g3, g4, g5, g6, g7, g8]
  refine (Cert.ReferenceIdeal.Read.val_main_v36_eq _ _ _ _ _ _ _ _ _).trans ?_
  rw [Cert.ReferenceIdeal.RefValue.ref_eq _ _ _ _ _ _ _ _ _ (fun i => (hr c i).1)]
  obtain ⟨h0, h2, h3, h4, h5, h6, h7, h8, -⟩ := hd c
  exact (Cert.Colora.fusedOf_eq_splitOf _ _ _ _ _ _ _ _ _ h0 h2 h3 h4 h5 h6 h7 h8).symm

end LayerClaims

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
